-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S165x128 : S_.BroadcastsInDim S165x128 (![] : Fin 0 → Fin S165x128.rank)
  reducesTo_S165x128_S_d0_1 : S165x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x165 .f32) (main_arg1 : IVec S2x1600000 32) (main_arg2 : FVec F S165x128 .f32) (main_arg3 : FVec F S128 .f32) (main_arg4 : FVec F S128x2 .f32) (main_arg5 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S165x128 .f32 := Host.absf main_arg2
  let main_cst_0 : FVec F S_ .f32 := constant S_ .f32 0x7F800000#32
  let main_v5 : FVec F S165x128 .f32 := broadcastInDim S165x128 ![] bcast_S_S165x128 main_cst_0
  let main_v6 : IVec S165x128 1 := cmpf .olt main_v4 main_v5
  let main_c_1 : IVec S_ 1 := constantI S_ 1 1#1
  let main_v7 : IVec S_ 1 := (fun x v => Host.reduce IntOp.andi x v reducesTo_S165x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S2000x165 : Shape := ⟨2, ![2000, 165]⟩
abbrev S2000x128 : Shape := ⟨2, ![2000, 128]⟩
abbrev S1700000x128 : Shape := ⟨2, ![1700000, 128]⟩
abbrev S1x128 : Shape := ⟨2, ![1, 128]⟩
abbrev S100000x2 : Shape := ⟨2, ![100000, 2]⟩
abbrev S2000x2 : Shape := ⟨2, ![2000, 2]⟩
abbrev S1700000x2 : Shape := ⟨2, ![1700000, 2]⟩
abbrev S1x2 : Shape := ⟨2, ![1, 2]⟩

abbrev nBuf : Space → Nat
  | .hbm => 84
  | .vmem => 20
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x2, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x2, .f32⟩
  | .hbm, ⟨75, _⟩ => ⟨S1700000x1, .f32⟩
  | .hbm, ⟨76, _⟩ => ⟨S1700000x2, .f32⟩
  | .hbm, ⟨77, _⟩ => ⟨S1700000x2, .f32⟩
  | .hbm, ⟨78, _⟩ => ⟨S_, .f32⟩
  | .hbm, ⟨79, _⟩ => ⟨S100000x2, .f32⟩
  | .hbm, ⟨80, _⟩ => ⟨S1700000x1, .i32⟩
  | .hbm, ⟨81, _⟩ => ⟨S100000x2, .f32⟩
  | .hbm, ⟨82, _⟩ => ⟨S1x2, .f32⟩
  | .hbm, ⟨83, _⟩ => ⟨S100000x2, .f32⟩
  | .local _ .vmem, ⟨0, _⟩ => ⟨S2000x165, .f32⟩
  | .local _ .vmem, ⟨1, _⟩ => ⟨S2000x165, .f32⟩
  | .local _ .vmem, ⟨2, _⟩ => ⟨S165x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x2, .f32⟩
  | .local _ .vmem, ⟨13, _⟩ => ⟨S2000x2, .f32⟩
  | .local _ .vmem, ⟨14, _⟩ => ⟨S2000x2, .f32⟩
  | .local _ .vmem, ⟨15, _⟩ => ⟨S2000x2, .f32⟩
  | .local _ .vmem, ⟨16, _⟩ => ⟨S2000x2, .f32⟩
  | .local _ .vmem, ⟨17, _⟩ => ⟨S1x2, .f32⟩
  | .local _ .vmem, ⟨18, _⟩ => ⟨S2000x2, .f32⟩
  | .local _ .vmem, ⟨19, _⟩ => ⟨S2000x2, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x165_S2000x165_0_0 : ∀ a, (![0, 0] : Fin 2 → Nat) a + S2000x165.size a ≤ S2000x165.size a
  h_S2000x165 : 0 < S2000x165.numel
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  inb_S2000x128_S2000x128_0_0 : ∀ a, (![0, 0] : Fin 2 → Nat) a + S2000x128.size a ≤ S2000x128.size a
  h_S2000x128 : 0 < S2000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  inb_S2000x2_S2000x2_0_0 : ∀ a, (![0, 0] : Fin 2 → Nat) a + S2000x2.size a ≤ S2000x2.size a
  h_S2000x2 : 0 < S2000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x165_S165x128_S2000x128_1_0_0_1_n_n_wf : DotDims.WF S2000x165 S165x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x2_S2000x2_1_0_0_1_n_n_wf : DotDims.WF S2000x128 S128x2 S2000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x165.size a ≤ S100000x165.size a
  hwx0_0 : ∀ i : grid0.Coords, EltTy.bits .f32 = 32 ∨ (Rect.block (s := S100000x165) S2000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x128.size a ≤ S165x128.size a
  hwx0_1 : ∀ i : grid0.Coords, EltTy.bits .f32 = 32 ∨ (Rect.block (s := S165x128) S165x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S100000x2.size a
  hwx2_2 : ∀ i : grid2.Coords, EltTy.bits .f32 = 32 ∨ (Rect.block (s := S100000x2) S2000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x2.size a ≤ S100000x2.size a
  hwx3_0 : ∀ i : grid3.Coords, EltTy.bits .f32 = 32 ∨ (Rect.block (s := S100000x2) S2000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x2.size a ≤ S100000x2.size a
  hwx3_2 : ∀ i : grid3.Coords, EltTy.bits .f32 = 32 ∨ (Rect.block (s := S100000x2) S2000x2.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x165_S165x128_S2000x128_1_0_0_1_n_n : DotDims S2000x165 S165x128 S2000x128 where
  lhsContracting := [1]
  rhsContracting := [0]
  lhsNonContracting := [0]
  rhsNonContracting := [1]
  lhsBatch := []
  rhsBatch := []
  wf := dot_S2000x165_S165x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S2000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S165x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x2, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S1700000x1, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x2, .f32⟩
  | .hbm, ⟨116, _⟩ => ⟨S1700000x2, .f32⟩
  | .hbm, ⟨117, _⟩ => ⟨S1700000x2, .f32⟩
  | .hbm, ⟨118, _⟩ => ⟨S_, .f32⟩
  | .hbm, ⟨119, _⟩ => ⟨S100000x2, .f32⟩
  | .hbm, ⟨120, _⟩ => ⟨S1700000x1, .i32⟩
  | .hbm, ⟨121, _⟩ => ⟨S100000x2, .f32⟩
  | .hbm, ⟨122, _⟩ => ⟨S1x2, .f32⟩
  | .hbm, ⟨123, _⟩ => ⟨S100000x2, .f32⟩
  | .hbm, ⟨124, _⟩ => ⟨S100000x2, .f32⟩
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x165_S165x128_S100000x128_1_0_0_1_n_n_wf : DotDims.WF S100000x165 S165x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.GcnSpec.lean ====
/-
  The layer functions of a two-layer graph convolution, as whole-array functions over the extended reals.

  A dense product `x · w` of an `[n, K]` array with a `[K, d]` array is, at `(r, q)`, the sum over `k` of
  `x (r, k) * w (k, q)`: entry `(r, q)` reads row `r` of `x` only, so a block of rows of the product is the product of
  that block of rows. A bias row `b : [1, d]` added to every row of an `[n, d]` array, with or without the
  rectifier `max (·, 0)` after it, reads at `(r, q)` the entries `a (r, q)` and `b (0, q)` only.
-/
import Idealize.ShloMosaic.PureOps.Ideal
import Idealize.ShloMosaic.PureOps.Ideal.Laws
import Idealize.ShloMosaic.Lib.ValueIdx

noncomputable section

namespace Cert.GcnSpec

open Idealize.ShloMosaic Idealize.ShloMosaic.ValueIdx

/-- A rank-2 array of extended reals. -/
abbrev Arr (a b : Nat) : Type := (⟨2, ![a, b]⟩ : Shape).Idx → EReal

/-- The index `(r, k)` of the left operand that output index `i = (r, q)` meets at contraction index `k`. -/
abbrev rowIx {n d : Nat} (K : Nat) (i : (⟨2, ![n, d]⟩ : Shape).Idx) (k : Fin K) : (⟨2, ![n, K]⟩ : Shape).Idx :=
  fun a => match a with
  | ⟨0, _⟩ => ⟨(i 0).val, (i 0).isLt⟩
  | ⟨1, _⟩ => ⟨k.val, k.isLt⟩

/-- The index `(k, q)` of the right operand that output index `i = (r, q)` meets at contraction index `k`. -/
abbrev colIx {n d : Nat} (K : Nat) (i : (⟨2, ![n, d]⟩ : Shape).Idx) (k : Fin K) : (⟨2, ![K, d]⟩ : Shape).Idx :=
  fun a => match a with
  | ⟨0, _⟩ => ⟨k.val, k.isLt⟩
  | ⟨1, _⟩ => ⟨(i 1).val, (i 1).isLt⟩

/-- The index `(0, q)` of a one-row array under output index `i = (r, q)`. -/
abbrev rowZero {n d : Nat} (i : (⟨2, ![n, d]⟩ : Shape).Idx) : (⟨2, ![1, d]⟩ : Shape).Idx :=
  fun a => match a with
  | ⟨0, _⟩ => ⟨0, Nat.one_pos⟩
  | ⟨1, _⟩ => ⟨(i 1).val, (i 1).isLt⟩

/-- The dense product `x · w`: at `(r, q)` the sum over `k` of `x (r, k) * w (k, q)`. -/
def dense {n K d : Nat} (x : Arr n K) (w : Arr K d) : Arr n d :=
  fun i => ∑ k : Fin K, x (rowIx K i k) * w (colIx K i k)

/-- A bias row added to every row, then the rectifier against the zero word of f32. -/
def biasRelu {n d : Nat} (a : Arr n d) (b : Arr 1 d) : Arr n d :=
  fun i => max (a i + b (rowZero i)) (Ideal.ofBits .f32 0x00000000#32)

/-- A bias row added to every row. -/
def biasAdd {n d : Nat} (a : Arr n d) (b : Arr 1 d) : Arr n d :=
  fun i => a i + b (rowZero i)

theorem dense_apply {n K d : Nat} (x : Arr n K) (w : Arr K d) (i : (⟨2, ![n, d]⟩ : Shape).Idx) :
    dense x w i = ∑ k : Fin K, x (rowIx K i k) * w (colIx K i k) := rfl

theorem biasRelu_apply {n d : Nat} (a : Arr n d) (b : Arr 1 d) (i : (⟨2, ![n, d]⟩ : Shape).Idx) :
    biasRelu a b i = max (a i + b (rowZero i)) (Ideal.ofBits .f32 0x00000000#32) := rfl

theorem biasAdd_apply {n d : Nat} (a : Arr n d) (b : Arr 1 d) (i : (⟨2, ![n, d]⟩ : Shape).Idx) :
    biasAdd a b i = a i + b (rowZero i) := rfl

end Cert.GcnSpec

end
-- ==== Proof.DenseRegion0.lean ====
/-
  The first dense layer's pallas_call (grid of 50 row blocks of 2000 rows): after the run its output array
  [100000, 128] is the dense product of the [100000, 165] array and the [165, 128] array it was entered with.
  Point t reads rows 2000 t … 2000 t + 1999 of the left array and the whole right array, and writes back the same
  rows of the product: entry (r, q) of a dense product reads row r only, so the blocks are restrictions of ONE
  whole-array function, and the 50 blocks cover every row.
-/
import proofs.«174727_j6871947674334_1_alg».proof.Proof.Gen.KernelIdeal.Frame
import proofs.«174727_j6871947674334_1_alg».proof.Proof.GcnSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

/- The buffer contents a region is entered from: any. -/
variable (V : (c : Dev nD) → (b : Ref sig .tc) → Buf (Elt Ideal) ((c : Thread nD τ).loc b))

theorem hz : (![0, 0] : Fin 2 → Nat) = fun _ => 0 := funext fun a => by fin_cases a <;> rfl

/-- The left array `[100000, 165]` as the region finds it. -/
abbrev xarr (c : Dev nD) : S100000x165.Idx → EReal := V c main_arg0
/-- The right array `[165, 128]` as the region finds it. -/
abbrev warr (c : Dev nD) : S165x128.Idx → EReal := V c main_arg2

/-! ## The body's product at an index -/

theorem lhs_0 (i : S2000x128.Idx) (q : dot_S2000x165_S165x128_S2000x128_1_0_0_1_n_n.contr.Idx) :
    (dot_S2000x165_S165x128_S2000x128_1_0_0_1_n_n.lhsIdx i q 0).val = (i 0).val := by
  unfold DotDims.lhsIdx
  rw [dif_neg (show ¬(0 : Fin S2000x165.rank) ∈ dot_S2000x165_S165x128_S2000x128_1_0_0_1_n_n.lhsBatch by decide), dif_pos (show (0 : Fin S2000x165.rank) ∈ dot_S2000x165_S165x128_S2000x128_1_0_0_1_n_n.lhsNonContracting by decide)]
  rfl
theorem lhs_1 (i : S2000x128.Idx) (q : dot_S2000x165_S165x128_S2000x128_1_0_0_1_n_n.contr.Idx) :
    (dot_S2000x165_S165x128_S2000x128_1_0_0_1_n_n.lhsIdx i q 1).val = (q ⟨0, by decide⟩).val :=
  dot_S2000x165_S165x128_S2000x128_1_0_0_1_n_n.lhsIdx_val_of_single rfl i q
theorem rhs_0 (i : S2000x128.Idx) (q : dot_S2000x165_S165x128_S2000x128_1_0_0_1_n_n.contr.Idx) :
    (dot_S2000x165_S165x128_S2000x128_1_0_0_1_n_n.rhsIdx i q 0).val = (q ⟨0, by decide⟩).val :=
  dot_S2000x165_S165x128_S2000x128_1_0_0_1_n_n.rhsIdx_val_of_single rfl i q
theorem rhs_1 (i : S2000x128.Idx) (q : dot_S2000x165_S165x128_S2000x128_1_0_0_1_n_n.contr.Idx) :
    (dot_S2000x165_S165x128_S2000x128_1_0_0_1_n_n.rhsIdx i q 1).val = (i 1).val := by
  unfold DotDims.rhsIdx
  rw [dif_neg (show ¬(1 : Fin S165x128.rank) ∈ dot_S2000x165_S165x128_S2000x128_1_0_0_1_n_n.rhsBatch by decide), dif_pos (show (1 : Fin S165x128.rank) ∈ dot_S2000x165_S165x128_S2000x128_1_0_0_1_n_n.rhsNonContracting by decide)]
  rfl

/-- The body's one stored value, read at `(r, q)` of the block: the sum over `k` of the row block's `(r, k)` entry
    times the weight's `(k, q)` entry (the narrowing to bf16 is the identity on the extended reals, and the product is
    accumulated into the zero array). -/
theorem pay_apply (x0 : Vec Ideal S2000x165 .f32) (x1 : Vec Ideal S165x128 .f32) (j : S2000x128.Idx) :
    k0_pay1 (F := Ideal) x0 x1 j = ∑ k : Fin 165, x0 (Cert.GcnSpec.rowIx 165 j k) * x1 (Cert.GcnSpec.colIx 165 j k) := by
  unfold k0_pay1
  simp only [matmul]
  rw [Ideal.matmul_constant_zero_apply, ← Equiv.sum_comp (ValueIdx.contrEquiv1 dot_S2000x165_S165x128_S2000x128_1_0_0_1_n_n 165 rfl rfl).symm]
  refine Finset.sum_congr rfl fun k _ => ?_
  have hk := ValueIdx.contrEquiv1_symm_val dot_S2000x165_S165x128_S2000x128_1_0_0_1_n_n 165 rfl rfl k
  have el : dot_S2000x165_S165x128_S2000x128_1_0_0_1_n_n.lhsIdx j ((ValueIdx.contrEquiv1 dot_S2000x165_S165x128_S2000x128_1_0_0_1_n_n 165 rfl rfl).symm k) = Cert.GcnSpec.rowIx 165 j k := funext fun a => Fin.ext (by
    match a with
    | ⟨0, _⟩ => exact lhs_0 _ _
    | ⟨1, _⟩ => exact (lhs_1 _ _).trans hk)
  have er : dot_S2000x165_S165x128_S2000x128_1_0_0_1_n_n.rhsIdx j ((ValueIdx.contrEquiv1 dot_S2000x165_S165x128_S2000x128_1_0_0_1_n_n 165 rfl rfl).symm k) = Cert.GcnSpec.colIx 165 j k := funext fun a => Fin.ext (by
    match a with
    | ⟨0, _⟩ => exact (rhs_0 _ _).trans hk
    | ⟨1, _⟩ => exact rhs_1 _ _)
  rw [el, er]
  rfl

/-! ## The blocks: where each window's block sits in its array -/

/-- The printed index maps over the grid: the row blocks of the input and of the output move together, one block a
    point; the weight's one block stays. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT POINT `t` WRITES BACK is block `t` of the dense product of the two arrays as the region finds them. -/
theorem flushed_eq (c : Dev nD) (t : Fin cfg0.N) :
    (dat0 (F := Ideal) V c).flushed 2 t = ((cfg0.win 2).blk t).view.read (Elt Ideal)
      (Cert.GcnSpec.dense (n := 100000) (K := 165) (d := 128) (xarr V c) (warr V c) : S100000x128.Idx → EReal) := by
  show (cfg0.win 2).cut (grid0.coords t) ((dat0 (F := Ideal) V c).after 2 t) = _
  rw [after0_2]
  unfold out0_2
  rw [View.canon_unit_zero hz]
  simp only [View.ld_unit_zero (S := S2000x165) hz, View.ld_unit_zero (S := S165x128) hz]
  obtain ⟨e0, e1, e2, e3, e4, e5⟩ := idx_facts t
  funext j
  refine (pay_apply (iblk0 V c 0 t) (iblk0 V c 1 t) j).trans ?_
  show (∑ k : Fin 165, xarr V c (((cfg0.win 0).blk t).view.emb (Cert.GcnSpec.rowIx 165 (j : S2000x128.Idx) k)) * warr V c (((cfg0.win 1).blk t).view.emb (Cert.GcnSpec.colIx 165 (j : S2000x128.Idx) k)))
    = ∑ k : Fin 165, xarr V c (Cert.GcnSpec.rowIx 165 ((((cfg0.win 2).blk t).view.emb j) : S100000x128.Idx) k) * warr V c (Cert.GcnSpec.colIx 165 ((((cfg0.win 2).blk t).view.emb j) : S100000x128.Idx) k)
  refine Finset.sum_congr rfl fun k _ => ?_
  have h0 : ((cfg0.win 0).blk t).view.emb (Cert.GcnSpec.rowIx 165 (j : S2000x128.Idx) k) = Cert.GcnSpec.rowIx 165 ((((cfg0.win 2).blk t).view.emb j) : S100000x128.Idx) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 165 + 1 * k.val = k.val; omega
  have h1 : ((cfg0.win 1).blk t).view.emb (Cert.GcnSpec.colIx 165 (j : S2000x128.Idx) k) = Cert.GcnSpec.colIx 165 ((((cfg0.win 2).blk t).view.emb j) : S100000x128.Idx) k := by
    funext a; apply Fin.ext
    match a with
    | ⟨0, _⟩ => show win0_1.index t (0 : Fin 2) * 165 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every row of the output array is in some point's block: row `r` in block `r / 2000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨e0, e1, e2, e3, e4, e5⟩ := idx_facts t
  have e5' : win0_2.index t (0 : Fin 2) = (i 0).val / 2000 := e5
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After region 0 its output array is the dense product of its two input arrays as the region found them. -/
theorem region0_out (c : Dev nD) :
    (dat0 (F := Ideal) V c).arrAt 2 cfg0.N
      = (Cert.GcnSpec.dense (n := 100000) (K := 165) (d := 128) (xarr V c) (warr V c) : S100000x128.Idx → EReal) :=
  (dat0 (F := Ideal) V c).arrAt_eq_of_cover 2 _ (fun t _ => flushed_eq V c t) cover

end Cert.KernelIdeal.Region0

end
-- ==== Proof.BiasRegion1.lean ====
/-
  The first bias-and-rectifier pallas_call (grid of 50 row blocks of 2000 rows): after the run its output array
  [100000, 128] is max (a + b, 0) of the [100000, 128] array a and the one-row array b it was entered with.
  Point t reads rows 2000 t … 2000 t + 1999 of a and the whole row b, and writes back the same rows of the result:
  entry (r, q) reads a (r, q) and b (0, q) only, so the blocks are restrictions of ONE whole-array function, and the
  50 blocks cover every row.
-/
import proofs.«174727_j6871947674334_1_alg».proof.Proof.Gen.KernelIdeal.Frame
import proofs.«174727_j6871947674334_1_alg».proof.Proof.GcnSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

/- The buffer contents a region is entered from: any. -/
variable (V : (c : Dev nD) → (b : Ref sig .tc) → Buf (Elt Ideal) ((c : Thread nD τ).loc b))

theorem hz : (![0, 0] : Fin 2 → Nat) = fun _ => 0 := funext fun a => by fin_cases a <;> rfl

/-- The input array `[100000, 128]` as the region finds it. -/
abbrev aarr (c : Dev nD) : S100000x128.Idx → EReal := V c main_v43
/-- The bias row `[1, 128]` as the region finds it. -/
abbrev barr (c : Dev nD) : S1x128.Idx → EReal := V c main_v44

/-! ## The body's value at an index -/

/-- The body's one stored value, read at `(r, q)` of the block: the block's entry plus the bias row's entry at `q`,
    rectified against the zero word (the two shape casts are identities; the one-row array is broadcast over the rows). -/
theorem pay_apply (x0 : Vec Ideal S2000x128 .f32) (x1 : Vec Ideal S1x128 .f32) (j : S2000x128.Idx) :
    k1_pay1 (F := Ideal) x0 x1 j = max (x0 j + x1 (Cert.GcnSpec.rowZero j)) (Ideal.ofBits .f32 0x00000000#32) := by
  unfold k1_pay1
  simp only [shapeCast_self]
  show max (x0 j + broadcastTo S2000x128 x1 broadcasts_S1x128_S2000x128 j) (Ideal.ofBits .f32 0x00000000#32) = _
  rw [broadcastTo_apply x1 broadcasts_S1x128_S2000x128 j (Cert.GcnSpec.rowZero j) (fun ax => match ax with
    | ⟨0, _⟩ => by show 0 = if (1 : Nat) = 1 then 0 else (j 0).val; rw [if_pos rfl]
    | ⟨1, _⟩ => by show (j 1).val = if (128 : Nat) = 1 then 0 else (j 1).val; rw [if_neg (by decide)])]

/-! ## The blocks: where each window's block sits in its array -/

/-- The printed index maps over the grid: the row blocks of the input and of the output move together, one block a
    point; the bias row's one block stays. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- WHAT POINT `t` WRITES BACK is block `t` of the rectified sum of the array and the bias row as the region finds them. -/
theorem flushed_eq (c : Dev nD) (t : Fin cfg1.N) :
    (dat1 (F := Ideal) V c).flushed 2 t = ((cfg1.win 2).blk t).view.read (Elt Ideal)
      (Cert.GcnSpec.biasRelu (n := 100000) (d := 128) (aarr V c) (barr V c) : S100000x128.Idx → EReal) := by
  show (cfg1.win 2).cut (grid1.coords t) ((dat1 (F := Ideal) V c).after 2 t) = _
  rw [after1_2]
  unfold out1_2
  rw [View.canon_unit_zero hz]
  simp only [View.ld_unit_zero (S := S2000x128) hz, View.ld_unit_zero (S := S1x128) hz]
  obtain ⟨e0, e1, e2, e3, e4, e5⟩ := idx_facts t
  funext j
  refine (pay_apply (iblk1 V c 0 t) (iblk1 V c 1 t) j).trans ?_
  show max (aarr V c (((cfg1.win 0).blk t).view.emb j) + barr V c (((cfg1.win 1).blk t).view.emb (Cert.GcnSpec.rowZero (j : S2000x128.Idx)))) (Ideal.ofBits .f32 0x00000000#32)
    = max (aarr V c (((cfg1.win 2).blk t).view.emb j) + barr V c (Cert.GcnSpec.rowZero ((((cfg1.win 2).blk t).view.emb j) : S100000x128.Idx))) (Ideal.ofBits .f32 0x00000000#32)
  have h0 : (((cfg1.win 0).blk t).view.emb j : S100000x128.Idx) = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (Cert.GcnSpec.rowZero (j : S2000x128.Idx)) = Cert.GcnSpec.rowZero ((((cfg1.win 2).blk t).view.emb j) : S100000x128.Idx) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- Every row of the output array is in some point's block: row `r` in block `r / 2000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨e0, e1, e2, e3, e4, e5⟩ := idx_facts t
  have e5' : win1_2.index t (0 : Fin 2) = (i 0).val / 2000 := e5
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After region 1 its output array is the bias row added to every row of its input, rectified. -/
theorem region1_out (c : Dev nD) :
    (dat1 (F := Ideal) V c).arrAt 2 cfg1.N
      = (Cert.GcnSpec.biasRelu (n := 100000) (d := 128) (aarr V c) (barr V c) : S100000x128.Idx → EReal) :=
  (dat1 (F := Ideal) V c).arrAt_eq_of_cover 2 _ (fun t _ => flushed_eq V c t) cover

end Cert.KernelIdeal.Region1

end
-- ==== Proof.DenseRegion2.lean ====
/-
  The second dense layer's pallas_call (grid of 50 row blocks of 2000 rows): after the run its output array
  [100000, 2] is the dense product of the [100000, 128] array and the [128, 2] array it was entered with.
  Point t reads rows 2000 t … 2000 t + 1999 of the left array and the whole right array, and writes back the same
  rows of the product: entry (r, q) of a dense product reads row r only, so the blocks are restrictions of ONE
  whole-array function, and the 50 blocks cover every row.
-/
import proofs.«174727_j6871947674334_1_alg».proof.Proof.Gen.KernelIdeal.Frame
import proofs.«174727_j6871947674334_1_alg».proof.Proof.GcnSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen Idealize.ShloMosaic.ValueIdx

/- The buffer contents a region is entered from: any. -/
variable (V : (c : Dev nD) → (b : Ref sig .tc) → Buf (Elt Ideal) ((c : Thread nD τ).loc b))

theorem hz : (![0, 0] : Fin 2 → Nat) = fun _ => 0 := funext fun a => by fin_cases a <;> rfl

/-- The left array `[100000, 128]` as the region finds it. -/
abbrev xarr (c : Dev nD) : S100000x128.Idx → EReal := V c main_v45
/-- The right array `[128, 2]` as the region finds it. -/
abbrev warr (c : Dev nD) : S128x2.Idx → EReal := V c main_arg4

/-! ## The body's product at an index -/

theorem lhs_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
theorem lhs_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
theorem rhs_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
theorem rhs_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The body's one stored value, read at `(r, q)` of the block: the sum over `k` of the row block's `(r, k)` entry
    times the weight's `(k, q)` entry (the narrowing to bf16 is the identity on the extended reals, and the product is
    accumulated into the zero array). -/
theorem pay_apply (x0 : Vec Ideal S2000x128 .f32) (x1 : Vec Ideal S128x2 .f32) (j : S2000x2.Idx) :
    k2_pay1 (F := Ideal) x0 x1 j = ∑ k : Fin 128, x0 (Cert.GcnSpec.rowIx 128 j k) * x1 (Cert.GcnSpec.colIx 128 j k) := by
  unfold k2_pay1
  simp only [matmul, shapeCast_self]
  rw [Ideal.matmul_constant_zero_apply, ← Equiv.sum_comp (ValueIdx.contrEquiv1 dot_S2000x128_S128x2_S2000x2_1_0_0_1_n_n 128 rfl rfl).symm]
  refine Finset.sum_congr rfl fun k _ => ?_
  have hk := ValueIdx.contrEquiv1_symm_val dot_S2000x128_S128x2_S2000x2_1_0_0_1_n_n 128 rfl rfl k
  have el : dot_S2000x128_S128x2_S2000x2_1_0_0_1_n_n.lhsIdx j ((ValueIdx.contrEquiv1 dot_S2000x128_S128x2_S2000x2_1_0_0_1_n_n 128 rfl rfl).symm k) = Cert.GcnSpec.rowIx 128 j k := funext fun a => Fin.ext (by
    match a with
    | ⟨0, _⟩ => exact lhs_0 _ _
    | ⟨1, _⟩ => exact (lhs_1 _ _).trans hk)
  have er : dot_S2000x128_S128x2_S2000x2_1_0_0_1_n_n.rhsIdx j ((ValueIdx.contrEquiv1 dot_S2000x128_S128x2_S2000x2_1_0_0_1_n_n 128 rfl rfl).symm k) = Cert.GcnSpec.colIx 128 j k := funext fun a => Fin.ext (by
    match a with
    | ⟨0, _⟩ => exact (rhs_0 _ _).trans hk
    | ⟨1, _⟩ => exact rhs_1 _ _)
  rw [el, er]
  rfl

/-! ## The blocks: where each window's block sits in its array -/

/-- The printed index maps over the grid: the row blocks of the input and of the output move together, one block a
    point; the weight's one block stays. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- WHAT POINT `t` WRITES BACK is block `t` of the dense product of the two arrays as the region finds them. -/
theorem flushed_eq (c : Dev nD) (t : Fin cfg2.N) :
    (dat2 (F := Ideal) V c).flushed 2 t = ((cfg2.win 2).blk t).view.read (Elt Ideal)
      (Cert.GcnSpec.dense (n := 100000) (K := 128) (d := 2) (xarr V c) (warr V c) : S100000x2.Idx → EReal) := by
  show (cfg2.win 2).cut (grid2.coords t) ((dat2 (F := Ideal) V c).after 2 t) = _
  rw [after2_2]
  unfold out2_2
  rw [View.canon_unit_zero hz]
  simp only [View.ld_unit_zero (S := S2000x128) hz, View.ld_unit_zero (S := S128x2) hz]
  obtain ⟨e0, e1, e2, e3, e4, e5⟩ := idx_facts t
  funext j
  refine (pay_apply (iblk2 V c 0 t) (iblk2 V c 1 t) j).trans ?_
  show (∑ k : Fin 128, xarr V c (((cfg2.win 0).blk t).view.emb (Cert.GcnSpec.rowIx 128 (j : S2000x2.Idx) k)) * warr V c (((cfg2.win 1).blk t).view.emb (Cert.GcnSpec.colIx 128 (j : S2000x2.Idx) k)))
    = ∑ k : Fin 128, xarr V c (Cert.GcnSpec.rowIx 128 ((((cfg2.win 2).blk t).view.emb j) : S100000x2.Idx) k) * warr V c (Cert.GcnSpec.colIx 128 ((((cfg2.win 2).blk t).view.emb j) : S100000x2.Idx) k)
  refine Finset.sum_congr rfl fun k _ => ?_
  have h0 : ((cfg2.win 0).blk t).view.emb (Cert.GcnSpec.rowIx 128 (j : S2000x2.Idx) k) = Cert.GcnSpec.rowIx 128 ((((cfg2.win 2).blk t).view.emb j) : S100000x2.Idx) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have h1 : ((cfg2.win 1).blk t).view.emb (Cert.GcnSpec.colIx 128 (j : S2000x2.Idx) k) = Cert.GcnSpec.colIx 128 ((((cfg2.win 2).blk t).view.emb j) : S100000x2.Idx) k := by
    funext a; apply Fin.ext
    match a with
    | ⟨0, _⟩ => show win2_1.index t (0 : Fin 2) * 128 + 1 * k.val = k.val; omega
    | ⟨1, _⟩ => show win2_1.index t (1 : Fin 2) * 2 + 1 * (j 1).val = win2_2.index t (1 : Fin 2) * 2 + 1 * (j 1).val; omega
  rw [h0, h1]

/-- An index of the array is in point `t`'s block iff each coordinate is in the block's range on its axis. -/
theorem mem_blk (t : Fin cfg2.N) (i : S100000x2.Idx) :
    i ∈ ((cfg2.win 2).blk t).view.set ↔ ∀ a : Fin 2, win2_2.index t a * S2000x2.size a ≤ (i a).val ∧ (i a).val < win2_2.index t a * S2000x2.size a + S2000x2.size a := by
  show i ∈ ((View.whole main_v46).slice (win2_2.rect t)).set ↔ _
  rw [View.set_slice_whole, Rect.mem_set_unit]
  exact Iff.rfl

/-- Every row of the output array is in some point's block: row `r` in block `r / 2000`. -/
theorem cover (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  have hN : cfg2.N = 50 := N_2
  let t : Fin cfg2.N := ⟨(i 0).val / 2000, by rw [hN]; omega⟩
  obtain ⟨e0, e1, e2, e3, e4, e5⟩ := idx_facts t
  have e5' : win2_2.index t (0 : Fin 2) = (i 0).val / 2000 := e5
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 2 ≤ (i 1).val ∧ (i 1).val < win2_2.index t (1 : Fin 2) * 2 + 2; omega

/-- After region 2 its output array is the dense product of its two input arrays as the region found them. -/
theorem region2_out (c : Dev nD) :
    (dat2 (F := Ideal) V c).arrAt 2 cfg2.N
      = (Cert.GcnSpec.dense (n := 100000) (K := 128) (d := 2) (xarr V c) (warr V c) : S100000x2.Idx → EReal) :=
  (dat2 (F := Ideal) V c).arrAt_eq_of_cover 2 _ (fun t _ => flushed_eq V c t) cover

end Cert.KernelIdeal.Region2

end
-- ==== Proof.BiasRegion3.lean ====
/-
  The last bias pallas_call (grid of 50 row blocks of 2000 rows): after the run its output array
  [100000, 2] is a + b of the [100000, 2] array a and the one-row array b it was entered with.
  Point t reads rows 2000 t … 2000 t + 1999 of a and the whole row b, and writes back the same rows of the result:
  entry (r, q) reads a (r, q) and b (0, q) only, so the blocks are restrictions of ONE whole-array function, and the
  50 blocks cover every row.
-/
import proofs.«174727_j6871947674334_1_alg».proof.Proof.Gen.KernelIdeal.Frame
import proofs.«174727_j6871947674334_1_alg».proof.Proof.GcnSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region3

open Cert.KernelIdeal Cert.KernelIdeal.Gen Idealize.ShloMosaic.ValueIdx

/- The buffer contents a region is entered from: any. -/
variable (V : (c : Dev nD) → (b : Ref sig .tc) → Buf (Elt Ideal) ((c : Thread nD τ).loc b))

theorem hz : (![0, 0] : Fin 2 → Nat) = fun _ => 0 := funext fun a => by fin_cases a <;> rfl

/-- The input array `[100000, 2]` as the region finds it. -/
abbrev aarr (c : Dev nD) : S100000x2.Idx → EReal := V c main_v59
/-- The bias row `[1, 2]` as the region finds it. -/
abbrev barr (c : Dev nD) : S1x2.Idx → EReal := V c main_v60

/-! ## The body's value at an index -/

/-- The body's one stored value, read at `(r, q)` of the block: the block's entry plus the bias row's entry at `q` (the two shape casts are identities; the one-row array is broadcast over the rows). -/
theorem pay_apply (x0 : Vec Ideal S2000x2 .f32) (x1 : Vec Ideal S1x2 .f32) (j : S2000x2.Idx) :
    k3_pay1 (F := Ideal) x0 x1 j = x0 j + x1 (Cert.GcnSpec.rowZero j) := by
  unfold k3_pay1
  simp only [shapeCast_self]
  show x0 j + broadcastTo S2000x2 x1 broadcasts_S1x2_S2000x2 j = _
  rw [broadcastTo_apply x1 broadcasts_S1x2_S2000x2 j (Cert.GcnSpec.rowZero j) (fun ax => match ax with
    | ⟨0, _⟩ => by show 0 = if (1 : Nat) = 1 then 0 else (j 0).val; rw [if_pos rfl]
    | ⟨1, _⟩ => by show (j 1).val = if (2 : Nat) = 1 then 0 else (j 1).val; rw [if_neg (by decide)])]

/-! ## The blocks: where each window's block sits in its array -/

/-- The printed index maps over the grid: the row blocks of the input and of the output move together, one block a
    point; the bias row's one block stays. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- WHAT POINT `t` WRITES BACK is block `t` of the sum of the array and the bias row as the region finds them. -/
theorem flushed_eq (c : Dev nD) (t : Fin cfg3.N) :
    (dat3 (F := Ideal) V c).flushed 2 t = ((cfg3.win 2).blk t).view.read (Elt Ideal)
      (Cert.GcnSpec.biasAdd (n := 100000) (d := 2) (aarr V c) (barr V c) : S100000x2.Idx → EReal) := by
  show (cfg3.win 2).cut (grid3.coords t) ((dat3 (F := Ideal) V c).after 2 t) = _
  rw [after3_2]
  unfold out3_2
  rw [View.canon_unit_zero hz]
  simp only [View.ld_unit_zero (S := S2000x2) hz, View.ld_unit_zero (S := S1x2) hz]
  obtain ⟨e0, e1, e2, e3, e4, e5⟩ := idx_facts t
  funext j
  refine (pay_apply (iblk3 V c 0 t) (iblk3 V c 1 t) j).trans ?_
  show aarr V c (((cfg3.win 0).blk t).view.emb j) + barr V c (((cfg3.win 1).blk t).view.emb (Cert.GcnSpec.rowZero (j : S2000x2.Idx)))
    = aarr V c (((cfg3.win 2).blk t).view.emb j) + barr V c (Cert.GcnSpec.rowZero ((((cfg3.win 2).blk t).view.emb j) : S100000x2.Idx))
  have h0 : (((cfg3.win 0).blk t).view.emb j : S100000x2.Idx) = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 2 + 1 * (j 1).val = win3_2.index t (1 : Fin 2) * 2 + 1 * (j 1).val; omega
  have h1 : ((cfg3.win 1).blk t).view.emb (Cert.GcnSpec.rowZero (j : S2000x2.Idx)) = Cert.GcnSpec.rowZero ((((cfg3.win 2).blk t).view.emb j) : S100000x2.Idx) := by
    funext a; apply Fin.ext
    match a with
    | ⟨0, _⟩ => show win3_1.index t (0 : Fin 2) * 1 + 1 * 0 = 0; omega
    | ⟨1, _⟩ => show win3_1.index t (1 : Fin 2) * 2 + 1 * (j 1).val = win3_2.index t (1 : Fin 2) * 2 + 1 * (j 1).val; omega
  rw [h0, h1]

/-- An index of the array is in point `t`'s block iff each coordinate is in the block's range on its axis. -/
theorem mem_blk (t : Fin cfg3.N) (i : S100000x2.Idx) :
    i ∈ ((cfg3.win 2).blk t).view.set ↔ ∀ a : Fin 2, win3_2.index t a * S2000x2.size a ≤ (i a).val ∧ (i a).val < win3_2.index t a * S2000x2.size a + S2000x2.size a := by
  show i ∈ ((View.whole main_v61).slice (win3_2.rect t)).set ↔ _
  rw [View.set_slice_whole, Rect.mem_set_unit]
  exact Iff.rfl

/-- Every row of the output array is in some point's block: row `r` in block `r / 2000`. -/
theorem cover (i : S100000x2.Idx) : ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 50 := N_3
  let t : Fin cfg3.N := ⟨(i 0).val / 2000, by rw [hN]; omega⟩
  obtain ⟨e0, e1, e2, e3, e4, e5⟩ := idx_facts t
  have e5' : win3_2.index t (0 : Fin 2) = (i 0).val / 2000 := e5
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 2 ≤ (i 1).val ∧ (i 1).val < win3_2.index t (1 : Fin 2) * 2 + 2; omega

/-- After region 3 its output array is the bias row added to every row of its input. -/
theorem region3_out (c : Dev nD) :
    (dat3 (F := Ideal) V c).arrAt 2 cfg3.N
      = (Cert.GcnSpec.biasAdd (n := 100000) (d := 2) (aarr V c) (barr V c) : S100000x2.Idx → EReal) :=
  (dat3 (F := Ideal) V c).arrAt_eq_of_cover 2 _ (fun t _ => flushed_eq V c t) cover

end Cert.KernelIdeal.Region3

end
-- ==== Proof.HostStretches.lean ====
/-
  The host side of the two programs, stretch by stretch, for any float family.

  Both programs build the same edge lists (sources and targets with a self loop appended for every node), the same
  normalisation coefficient of every edge (the inverse square roots of the target degrees gathered at both ends and
  multiplied), and aggregate a node array the same way: gather the rows at the sources, scale each by its edge's
  coefficient, scatter-add at the targets. Here each of these is named once (`aggregateWide`, `aggregateNarrow`), the
  kernel program's host stretches are read against the names at ANY buffer contents, and the reference's stages are
  shown to be the same terms.
-/
import proofs.«174727_j6871947674334_1_alg».proof.Proof.Gen.KernelIdeal.Launch
import proofs.«174727_j6871947674334_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]

/-- An edge list `[1700000]` of node numbers. -/
abbrev Edges : Type := (⟨S1700000, .i32⟩ : BufTy).Contents (Elt F)
/-- One coefficient an edge. -/
abbrev Coefs (F : FTy → Type) : Type := (⟨S1700000, .f32⟩ : BufTy).Contents (Elt F)

/-- A node number as jnp indexing reads it: a negative one counts from the end. -/
def wrapIdx (s : (⟨S1700000, .i32⟩ : BufTy).Contents (Elt F)) : (⟨S1700000, .i32⟩ : BufTy).Contents (Elt F) :=
  select (cmpi .slt s (broadcastInDim S1700000 ![] bcast_S_S1700000 (constantI S_ 32 0#32)))
    (addi s (broadcastInDim S1700000 ![] bcast_S_S1700000 (constantI S_ 32 100000#32))) s

/-- The aggregation of a `[100000, 128]` node array over the edges: rows gathered at the sources `s`, each scaled by
    its edge's coefficient `nrm`, scatter-added at the targets `d` into the zero array. -/
def aggregateWide (s d : (⟨S1700000, .i32⟩ : BufTy).Contents (Elt F)) (nrm : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 d)
    (mulf (broadcastInDim S1700000x128 ![0, 1] bcast_S1700000x1_S1700000x128_0_1 (broadcastInDim S1700000x1 ![0] bcast_S1700000_S1700000x1_0 nrm))
      (Host.gather gather_S100000x128_S1700000x1_S1700000x128_1_0_n_n_0_1_1128 h
        (broadcastInDim S1700000x1 ![0] bcast_S1700000_S1700000x1_0 (wrapIdx (F := F) s))))

/-- The same aggregation of a `[100000, 2]` node array. -/
def aggregateNarrow (s d : (⟨S1700000, .i32⟩ : BufTy).Contents (Elt F)) (nrm : (⟨S1700000, .f32⟩ : BufTy).Contents (Elt F))
    (h : (⟨S100000x2, .f32⟩ : BufTy).Contents (Elt F)) : (⟨S100000x2, .f32⟩ : BufTy).Contents (Elt F) :=
  Host.scatterAdd scatter_S100000x2_S1700000x1_S1700000x2_1_0_0_1
    (broadcastInDim S100000x2 ![] bcast_S_S100000x2 (constant (F := F) S_ .f32 0x00000000#32))
    (broadcastInDim S1700000x1 ![0] bcast_S1700000_S1700000x1_0 d)
    (mulf (broadcastInDim S1700000x2 ![0, 1] bcast_S1700000x1_S1700000x2_0_1 (broadcastInDim S1700000x1 ![0] bcast_S1700000_S1700000x1_0 nrm))
      (Host.gather gather_S100000x2_S1700000x1_S1700000x2_1_0_n_n_0_1_12 h
        (broadcastInDim S1700000x1 ![0] bcast_S1700000_S1700000x1_0 (wrapIdx (F := F) s))))

/-! ## The kernel program's host stretches, from any buffer contents -/

/-- The stretch between the first dense call and the first bias call leaves in `%43` the aggregation of `%30`. -/
theorem stretch1_agg (W : Valuation τ sig (Elt F)) :
    StableHlo.after (hostOps1 (F := F)) W (Proc.devRef .tc main_v43)
      = aggregateWide (F := F) (W (Proc.devRef .tc main_v5)) (W (Proc.devRef .tc main_v6)) (W (Proc.devRef .tc main_v29)) (W (Proc.devRef .tc main_v30)) := by
  dsimp only [hostOps1]
  after_results_simp
  rfl

/-- The same stretch leaves in `%44` the first bias vector as one row. -/
theorem stretch1_bias (W : Valuation τ sig (Elt F)) :
    StableHlo.after (hostOps1 (F := F)) W (Proc.devRef .tc main_v44)
      = shapeCast S1x128 (W (Proc.devRef .tc main_arg3)) shapeCasts_S128_S1x128 := by
  dsimp only [hostOps1]
  after_results_simp
  rfl

/-- The same stretch writes neither the edge lists, nor the coefficients, nor the arguments the later calls read. -/
theorem stretch1_keep (W : Valuation τ sig (Elt F)) :
    StableHlo.after (hostOps1 (F := F)) W (Proc.devRef .tc main_v5) = W (Proc.devRef .tc main_v5)
    ∧ StableHlo.after (hostOps1 (F := F)) W (Proc.devRef .tc main_v6) = W (Proc.devRef .tc main_v6)
    ∧ StableHlo.after (hostOps1 (F := F)) W (Proc.devRef .tc main_v29) = W (Proc.devRef .tc main_v29)
    ∧ StableHlo.after (hostOps1 (F := F)) W (Proc.devRef .tc main_arg4) = W (Proc.devRef .tc main_arg4)
    ∧ StableHlo.after (hostOps1 (F := F)) W (Proc.devRef .tc main_arg5) = W (Proc.devRef .tc main_arg5) := by
  dsimp only [hostOps1]
  refine ⟨?_, ?_, ?_, ?_, ?_⟩ <;> after_results_simp

/-- The stretch between the second dense call and the last bias call leaves in `%59` the aggregation of `%46`. -/
theorem stretch3_agg (W : Valuation τ sig (Elt F)) :
    StableHlo.after (hostOps3 (F := F)) W (Proc.devRef .tc main_v59)
      = aggregateNarrow (F := F) (W (Proc.devRef .tc main_v5)) (W (Proc.devRef .tc main_v6)) (W (Proc.devRef .tc main_v29)) (W (Proc.devRef .tc main_v46)) := by
  dsimp only [hostOps3]
  after_results_simp
  rfl

/-- The same stretch leaves in `%60` the second bias vector as one row. -/
theorem stretch3_bias (W : Valuation τ sig (Elt F)) :
    StableHlo.after (hostOps3 (F := F)) W (Proc.devRef .tc main_v60)
      = shapeCast S1x2 (W (Proc.devRef .tc main_arg5)) shapeCasts_S2_S1x2 := by
  dsimp only [hostOps3]
  after_results_simp
  rfl

/-- The three stretches before the first dense call, from any contents: the edge lists and the coefficients are the
    reference's terms of the edge argument, and the float arguments are not written. -/
theorem stretch0 (W : Valuation τ sig (Elt F)) :
    let W3 := StableHlo.after (hostOps0_2 (F := F)) (StableHlo.after (hostOps0_1 (F := F)) (StableHlo.after (hostOps0 (F := F)) W))
    W3 (Proc.devRef .tc main_v5) = Cert.ReferenceIdeal.ReadP.val_main_v6 (F := F) (W (Proc.devRef .tc main_arg1))
    ∧ W3 (Proc.devRef .tc main_v6) = Cert.ReferenceIdeal.ReadP.val_main_v7 (F := F) (W (Proc.devRef .tc main_arg1))
    ∧ W3 (Proc.devRef .tc main_v29) = Cert.ReferenceIdeal.ReadP.val_main_v30 (F := F) (W (Proc.devRef .tc main_arg1))
    ∧ W3 (Proc.devRef .tc main_arg0) = W (Proc.devRef .tc main_arg0)
    ∧ W3 (Proc.devRef .tc main_arg2) = W (Proc.devRef .tc main_arg2)
    ∧ W3 (Proc.devRef .tc main_arg3) = W (Proc.devRef .tc main_arg3)
    ∧ W3 (Proc.devRef .tc main_arg4) = W (Proc.devRef .tc main_arg4)
    ∧ W3 (Proc.devRef .tc main_arg5) = W (Proc.devRef .tc main_arg5) := by
  intro W3
  dsimp only [W3, hostOps0_2, hostOps0_1, hostOps0]
  refine ⟨?_, ?_, ?_, ?_, ?_, ?_, ?_, ?_⟩
  · after_results_simp; rfl
  · after_results_simp; rfl
  · after_results_simp; rfl
  all_goals after_results_simp

/-! ## The reference's stages are the same terms -/

/-- The reference's first aggregation is `aggregateWide` of its own edge lists, coefficients and dense product. -/
theorem ref_wide (x0 : (⟨Cert.ReferenceIdeal.S100000x165, .f32⟩ : BufTy).Contents (Elt F)) (x1 : (⟨Cert.ReferenceIdeal.S2x1600000, .i32⟩ : BufTy).Contents (Elt F))
    (x2 : (⟨Cert.ReferenceIdeal.S165x128, .f32⟩ : BufTy).Contents (Elt F)) :
    Cert.ReferenceIdeal.ReadP.val_main_v43 (F := F) x0 x1 x2
      = aggregateWide (F := F) (Cert.ReferenceIdeal.ReadP.val_main_v6 (F := F) x1) (Cert.ReferenceIdeal.ReadP.val_main_v7 (F := F) x1)
          (Cert.ReferenceIdeal.ReadP.val_main_v30 (F := F) x1) (Cert.ReferenceIdeal.ReadP.val_main_v4 (F := F) x0 x2) := rfl

/-- The reference's second aggregation is `aggregateNarrow` of the same edge lists and coefficients (it builds them a
    second time, the same terms) and of its second dense product. -/
theorem ref_narrow (x0 : (⟨Cert.ReferenceIdeal.S100000x165, .f32⟩ : BufTy).Contents (Elt F)) (x1 : (⟨Cert.ReferenceIdeal.S2x1600000, .i32⟩ : BufTy).Contents (Elt F))
    (x2 : (⟨Cert.ReferenceIdeal.S165x128, .f32⟩ : BufTy).Contents (Elt F)) (x3 : (⟨Cert.ReferenceIdeal.S128, .f32⟩ : BufTy).Contents (Elt F))
    (x4 : (⟨Cert.ReferenceIdeal.S128x2, .f32⟩ : BufTy).Contents (Elt F)) :
    Cert.ReferenceIdeal.ReadP.val_main_v87 (F := F) x0 x1 x2 x3 x4
      = aggregateNarrow (F := F) (Cert.ReferenceIdeal.ReadP.val_main_v6 (F := F) x1) (Cert.ReferenceIdeal.ReadP.val_main_v7 (F := F) x1)
          (Cert.ReferenceIdeal.ReadP.val_main_v30 (F := F) x1) (Cert.ReferenceIdeal.ReadP.val_main_v48 (F := F) x0 x1 x2 x3 x4) := rfl

end Cert.KernelIdeal.Host

end
-- ==== Proof.LayerBridge.lean ====
/-
  The reference's dense, bias and rectifier stages are the layer functions, over the extended reals.

  The host's `dot_general` contracting axis 1 of the left operand with axis 0 of the right is, at `(r, q)`, the sum
  over `k` of `x (r, k) * w (k, q)`: the dense product. The reference adds a bias vector `[d]` by broadcasting it to one
  row `[1, d]` and then to every row; the kernel program reshapes the vector to one row and its pallas_call adds that
  row to every row: the same entry `b q` lands at `(r, q)` either way. The rectifier is `max (·, 0)` on both sides.
-/
import proofs.«174727_j6871947674334_1_alg».proof.Proof.GcnSpec
import proofs.«174727_j6871947674334_1_alg».proof.Proof.RefRead
import Idealize.ShloMosaic.Lib.ValueLayout

noncomputable section

open Idealize.ShloMosaic Idealize.ShloMosaic.TcCoe Idealize.ShloMosaic.ValueIdx

namespace Cert.ReferenceIdeal.Layers

open Cert.ReferenceIdeal Cert.ReferenceIdeal.ReadP Cert.GcnSpec

/-- The reference's first `dot_general` is the dense product of its operands. -/
theorem dense_first (x0 : S100000x165.Idx → EReal) (x2 : S165x128.Idx → EReal) :
    (dense (n := 100000) (K := 165) (d := 128) x0 x2 : S100000x128.Idx → EReal) = val_main_v4 (F := Ideal) x0 x2 := by
  funext i
  rw [dense_apply, val_main_v4_apply]
  refine Finset.sum_congr rfl fun k _ => ?_
  have el : rowIx 165 i k = lidx_main_v4 i k := funext fun a => by
    match a with
    | ⟨0, _⟩ => rfl
    | ⟨1, _⟩ => rfl
  have er : colIx 165 i k = ridx_main_v4 i k := funext fun a => by
    match a with
    | ⟨0, _⟩ => rfl
    | ⟨1, _⟩ => rfl
  rw [el, er]

/-- The reference's second `dot_general` is the dense product of the rectified first layer and the second weight. -/
theorem dense_second (x0 : S100000x165.Idx → EReal) (x1 : (⟨S2x1600000, .i32⟩ : BufTy).Contents (Elt Ideal)) (x2 : S165x128.Idx → EReal)
    (x3 : S128.Idx → EReal) (x4 : S128x2.Idx → EReal) :
    (dense (n := 100000) (K := 128) (d := 2) (val_main_v47 (F := Ideal) x0 x1 x2 x3) x4 : S100000x2.Idx → EReal)
      = val_main_v48 (F := Ideal) x0 x1 x2 x3 x4 := by
  funext i
  rw [dense_apply, val_main_v48_apply]
  refine Finset.sum_congr rfl fun k _ => ?_
  have el : rowIx 128 i k = lidx_main_v48 i k := funext fun a => by
    match a with
    | ⟨0, _⟩ => rfl
    | ⟨1, _⟩ => rfl
  have er : colIx 128 i k = ridx_main_v48 i k := funext fun a => by
    match a with
    | ⟨0, _⟩ => rfl
    | ⟨1, _⟩ => rfl
  rw [el, er]

/-- A vector reshaped to one row, read at `(0, q)`, is the vector at `q`. -/
theorem row_of_vector {d : Nat} (b : (⟨1, ![d]⟩ : Shape).Idx → EReal) (h : (⟨1, ![d]⟩ : Shape).ShapeCasts ⟨2, ![1, d]⟩)
    {n : Nat} (i : (⟨2, ![n, d]⟩ : Shape).Idx) :
    shapeCast ⟨2, ![1, d]⟩ b h (rowZero i) = b (ix1 ⟨(i 1).val, (i 1).isLt⟩) := by
  have e : rowZero i = ix2 (0 : Fin 1) (⟨(i 1).val, (i 1).isLt⟩ : Fin d) := funext fun a => by
    match a with
    | ⟨0, _⟩ => rfl
    | ⟨1, _⟩ => rfl
  rw [e, shapeCast_a_1a_apply]

/-- Bias and rectifier: the kernel program's row form is the reference's `relu (a + broadcast b)`. -/
theorem bias_relu (a : S100000x128.Idx → EReal) (x3 : S128.Idx → EReal) (h : S128.ShapeCasts S1x128) :
    (biasRelu (n := 100000) (d := 128) a (shapeCast S1x128 x3 h) : S100000x128.Idx → EReal)
      = maximumf (F := Ideal) (φ := .f32) (addf (F := Ideal) (φ := .f32) a (val_main_v45 (F := Ideal) x3)) (val_main_call1_v0 (F := Ideal)) := by
  funext i
  rw [biasRelu_apply, row_of_vector x3 h i]
  show _ = max (a i + val_main_v45 (F := Ideal) x3 i) (val_main_call1_v0 (F := Ideal) i)
  rw [val_main_v45_apply, val_main_v44_apply, val_main_call1_v0_apply, val_main_call1_cst_apply]
  have e : idx_main_v44 (idx_main_v45 i) = ix1 (⟨(i 1).val, (i 1).isLt⟩ : Fin 128) := funext fun a => by
    match a with
    | ⟨0, _⟩ => rfl
  rw [e]
  rfl

/-- Bias alone: the kernel program's row form is the reference's `a + broadcast b`. -/
theorem bias_add (a : S100000x2.Idx → EReal) (x5 : S2.Idx → EReal) (h : S2.ShapeCasts S1x2) :
    (biasAdd (n := 100000) (d := 2) a (shapeCast S1x2 x5 h) : S100000x2.Idx → EReal)
      = addf (F := Ideal) (φ := .f32) a (val_main_v89 (F := Ideal) x5) := by
  funext i
  rw [biasAdd_apply, row_of_vector x5 h i]
  show _ = a i + val_main_v89 (F := Ideal) x5 i
  rw [val_main_v89_apply, val_main_v88_apply]
  have e : idx_main_v88 (idx_main_v89 i) = ix1 (⟨(i 1).val, (i 1).isLt⟩ : Fin 2) := funext fun a => by
    match a with
    | ⟨0, _⟩ => rfl
  rw [e]

end Cert.ReferenceIdeal.Layers

end
-- ==== Proof.KernelValue.lean ====
/-
  What the kernel program leaves in its result array, over the extended reals: the reference's last stage.

  The buffer contents at the boundaries of @main are followed from the launch to the return. Before the first dense
  call the host builds the edge lists and the coefficients (the reference's terms). Each pallas_call leaves in its
  output array one whole-array function of its inputs (dense product; bias and rectifier; dense product; bias), and
  each host stretch between two calls aggregates the array the call before it left. At every step what the kernel
  program holds is the reference's stage of the same name: the dense products by the sum they both are, the two bias
  stages entry by entry, the aggregations as the same terms.
-/
import proofs.«174727_j6871947674334_1_alg».proof.Proof.Gen.KernelIdeal.Frame
import proofs.«174727_j6871947674334_1_alg».proof.Proof.DenseRegion0
import proofs.«174727_j6871947674334_1_alg».proof.Proof.BiasRegion1
import proofs.«174727_j6871947674334_1_alg».proof.Proof.DenseRegion2
import proofs.«174727_j6871947674334_1_alg».proof.Proof.BiasRegion3
import proofs.«174727_j6871947674334_1_alg».proof.Proof.HostStretches
import proofs.«174727_j6871947674334_1_alg».proof.Proof.LayerBridge

set_option maxRecDepth 16384

noncomputable section

open Idealize.ShloMosaic Idealize.ShloMosaic.TcCoe Idealize.SL.Sem

namespace Cert.KernelIdeal.Result

open Cert.KernelIdeal Cert.KernelIdeal.Gen Cert.KernelIdeal.Host

variable (m : (ℓ : Loc nD τ sig) → Buf (Elt Ideal) ℓ) (ρ : Dev nD → PrngReg)

/-- The six argument arrays as launched, at their literal types. -/
abbrev X0 (c : Dev nD) : S100000x165.Idx → EReal := m ((c : Thread nD τ).loc main_arg0)
abbrev X1 (c : Dev nD) : (⟨S2x1600000, .i32⟩ : BufTy).Contents (Elt Ideal) := m ((c : Thread nD τ).loc main_arg1)
abbrev X2 (c : Dev nD) : S165x128.Idx → EReal := m ((c : Thread nD τ).loc main_arg2)
abbrev X3 (c : Dev nD) : S128.Idx → EReal := m ((c : Thread nD τ).loc main_arg3)
abbrev X4 (c : Dev nD) : S128x2.Idx → EReal := m ((c : Thread nD τ).loc main_arg4)
abbrev X5 (c : Dev nD) : S2.Idx → EReal := m ((c : Thread nD τ).loc main_arg5)

/-- The reference's edge lists and coefficients of the launched edge argument. -/
abbrev srcs (c : Dev nD) := Cert.ReferenceIdeal.ReadP.val_main_v6 (F := Ideal) (X1 m c)
abbrev dsts (c : Dev nD) := Cert.ReferenceIdeal.ReadP.val_main_v7 (F := Ideal) (X1 m c)
abbrev coef (c : Dev nD) := Cert.ReferenceIdeal.ReadP.val_main_v30 (F := Ideal) (X1 m c)

/-- At the first dense call's entry: edge lists, coefficients, and the arguments as launched. -/
theorem at_entry0 (c : Dev nD) :
    W3 m ρ c (Proc.devRef .tc main_v5) = srcs m c
    ∧ W3 m ρ c (Proc.devRef .tc main_v6) = dsts m c
    ∧ W3 m ρ c (Proc.devRef .tc main_v29) = coef m c
    ∧ W3 m ρ c (Proc.devRef .tc main_arg0) = X0 m c
    ∧ W3 m ρ c (Proc.devRef .tc main_arg2) = X2 m c
    ∧ W3 m ρ c (Proc.devRef .tc main_arg3) = X3 m c
    ∧ W3 m ρ c (Proc.devRef .tc main_arg4) = X4 m c
    ∧ W3 m ρ c (Proc.devRef .tc main_arg5) = X5 m c :=
  stretch0 (F := Ideal) (W0 m ρ c)

/-- After the first dense call: its output is the reference's first `dot_general`. -/
theorem after_dense0 (c : Dev nD) :
    W4 m ρ c (Proc.devRef .tc main_v30) = Cert.ReferenceIdeal.ReadP.val_main_v4 (F := Ideal) (X0 m c) (X2 m c) := by
  obtain ⟨-, -, -, h0, h2, -, -, -⟩ := at_entry0 m ρ c
  calc W4 m ρ c (Proc.devRef .tc main_v30)
    _ = (dat0 (F := Ideal) (V3 m ρ) c).arrAt 2 cfg0.N := W4_arr m ρ c 2
    _ = (Cert.GcnSpec.dense (n := 100000) (K := 165) (d := 128) (Region0.xarr (V3 m ρ) c) (Region0.warr (V3 m ρ) c) : S100000x128.Idx → EReal) :=
        Region0.region0_out (V3 m ρ) c
    _ = (Cert.GcnSpec.dense (n := 100000) (K := 165) (d := 128) (X0 m c) (X2 m c) : S100000x128.Idx → EReal) :=
        congrArg₂ (Cert.GcnSpec.dense (n := 100000) (K := 165) (d := 128)) h0 h2
    _ = _ := Cert.ReferenceIdeal.Layers.dense_first (X0 m c) (X2 m c)

/-- After the first dense call the edge lists, the coefficients and the later arguments are as at its entry. -/
theorem kept_dense0 (c : Dev nD) :
    W4 m ρ c (Proc.devRef .tc main_v5) = srcs m c
    ∧ W4 m ρ c (Proc.devRef .tc main_v6) = dsts m c
    ∧ W4 m ρ c (Proc.devRef .tc main_v29) = coef m c
    ∧ W4 m ρ c (Proc.devRef .tc main_arg3) = X3 m c
    ∧ W4 m ρ c (Proc.devRef .tc main_arg4) = X4 m c
    ∧ W4 m ρ c (Proc.devRef .tc main_arg5) = X5 m c := by
  obtain ⟨hs, hd, hn, -, -, h3, h4, h5⟩ := at_entry0 m ρ c
  exact ⟨(W4_of_ne m ρ c main_v5 (by decide)).trans hs, (W4_of_ne m ρ c main_v6 (by decide)).trans hd,
    (W4_of_ne m ρ c main_v29 (by decide)).trans hn, (W4_of_ne m ρ c main_arg3 (by decide)).trans h3,
    (W4_of_ne m ρ c main_arg4 (by decide)).trans h4, (W4_of_ne m ρ c main_arg5 (by decide)).trans h5⟩

/-- At the first bias call's entry: the aggregated first layer is the reference's first scatter, the bias is the
    launched vector as one row, and the rest is carried. -/
theorem at_entry1 (c : Dev nD) :
    W5 m ρ c (Proc.devRef .tc main_v43) = Cert.ReferenceIdeal.ReadP.val_main_v43 (F := Ideal) (X0 m c) (X1 m c) (X2 m c)
    ∧ W5 m ρ c (Proc.devRef .tc main_v44) = shapeCast S1x128 (X3 m c) shapeCasts_S128_S1x128
    ∧ W5 m ρ c (Proc.devRef .tc main_v5) = srcs m c
    ∧ W5 m ρ c (Proc.devRef .tc main_v6) = dsts m c
    ∧ W5 m ρ c (Proc.devRef .tc main_v29) = coef m c
    ∧ W5 m ρ c (Proc.devRef .tc main_arg4) = X4 m c
    ∧ W5 m ρ c (Proc.devRef .tc main_arg5) = X5 m c := by
  obtain ⟨hs, hd, hn, h3, h4, h5⟩ := kept_dense0 m ρ c
  obtain ⟨ks, kd, kn, k4, k5⟩ := stretch1_keep (F := Ideal) (W4 m ρ c)
  refine ⟨?_, ?_, ks.trans hs, kd.trans hd, kn.trans hn, k4.trans h4, k5.trans h5⟩
  · refine (stretch1_agg (F := Ideal) (W4 m ρ c)).trans ?_
    rw [hs, hd, hn, after_dense0 m ρ c]
    exact (ref_wide (F := Ideal) (X0 m c) (X1 m c) (X2 m c)).symm
  · refine (stretch1_bias (F := Ideal) (W4 m ρ c)).trans ?_
    rw [h3]

/-- After the first bias call: its output is the reference's rectified first layer. -/
theorem after_bias1 (c : Dev nD) :
    W6 m ρ c (Proc.devRef .tc main_v45) = Cert.ReferenceIdeal.ReadP.val_main_v47 (F := Ideal) (X0 m c) (X1 m c) (X2 m c) (X3 m c) := by
  obtain ⟨ha, hb, -, -, -, -, -⟩ := at_entry1 m ρ c
  calc W6 m ρ c (Proc.devRef .tc main_v45)
    _ = (dat1 (F := Ideal) (V5 m ρ) c).arrAt 2 cfg1.N := W6_arr m ρ c 2
    _ = (Cert.GcnSpec.biasRelu (n := 100000) (d := 128) (Region1.aarr (V5 m ρ) c) (Region1.barr (V5 m ρ) c) : S100000x128.Idx → EReal) :=
        Region1.region1_out (V5 m ρ) c
    _ = (Cert.GcnSpec.biasRelu (n := 100000) (d := 128) (Cert.ReferenceIdeal.ReadP.val_main_v43 (F := Ideal) (X0 m c) (X1 m c) (X2 m c))
          (shapeCast S1x128 (X3 m c) shapeCasts_S128_S1x128) : S100000x128.Idx → EReal) :=
        congrArg₂ (Cert.GcnSpec.biasRelu (n := 100000) (d := 128)) ha hb
    _ = _ := Cert.ReferenceIdeal.Layers.bias_relu _ (X3 m c) shapeCasts_S128_S1x128

/-- After the first bias call the edge lists, the coefficients and the later arguments are carried. -/
theorem kept_bias1 (c : Dev nD) :
    W6 m ρ c (Proc.devRef .tc main_v5) = srcs m c
    ∧ W6 m ρ c (Proc.devRef .tc main_v6) = dsts m c
    ∧ W6 m ρ c (Proc.devRef .tc main_v29) = coef m c
    ∧ W6 m ρ c (Proc.devRef .tc main_arg4) = X4 m c
    ∧ W6 m ρ c (Proc.devRef .tc main_arg5) = X5 m c := by
  obtain ⟨-, -, hs, hd, hn, h4, h5⟩ := at_entry1 m ρ c
  exact ⟨(W6_of_ne m ρ c main_v5 (by decide)).trans hs, (W6_of_ne m ρ c main_v6 (by decide)).trans hd,
    (W6_of_ne m ρ c main_v29 (by decide)).trans hn, (W6_of_ne m ρ c main_arg4 (by decide)).trans h4,
    (W6_of_ne m ρ c main_arg5 (by decide)).trans h5⟩

/-- After the second dense call: its output is the reference's second `dot_general`. -/
theorem after_dense2 (c : Dev nD) :
    W7 m ρ c (Proc.devRef .tc main_v46)
      = Cert.ReferenceIdeal.ReadP.val_main_v48 (F := Ideal) (X0 m c) (X1 m c) (X2 m c) (X3 m c) (X4 m c) := by
  obtain ⟨-, -, -, h4, -⟩ := kept_bias1 m ρ c
  calc W7 m ρ c (Proc.devRef .tc main_v46)
    _ = (dat2 (F := Ideal) (V6 m ρ) c).arrAt 2 cfg2.N := W7_arr m ρ c 2
    _ = (Cert.GcnSpec.dense (n := 100000) (K := 128) (d := 2) (Region2.xarr (V6 m ρ) c) (Region2.warr (V6 m ρ) c) : S100000x2.Idx → EReal) :=
        Region2.region2_out (V6 m ρ) c
    _ = (Cert.GcnSpec.dense (n := 100000) (K := 128) (d := 2)
          (Cert.ReferenceIdeal.ReadP.val_main_v47 (F := Ideal) (X0 m c) (X1 m c) (X2 m c) (X3 m c)) (X4 m c) : S100000x2.Idx → EReal) :=
        congrArg₂ (Cert.GcnSpec.dense (n := 100000) (K := 128) (d := 2)) (after_bias1 m ρ c) h4
    _ = _ := Cert.ReferenceIdeal.Layers.dense_second (X0 m c) (X1 m c) (X2 m c) (X3 m c) (X4 m c)

/-- At the last bias call's entry: the aggregated second layer is the reference's second scatter, the bias is the
    launched vector as one row. -/
theorem at_entry3 (c : Dev nD) :
    W8 m ρ c (Proc.devRef .tc main_v59)
      = Cert.ReferenceIdeal.ReadP.val_main_v87 (F := Ideal) (X0 m c) (X1 m c) (X2 m c) (X3 m c) (X4 m c)
    ∧ W8 m ρ c (Proc.devRef .tc main_v60) = shapeCast S1x2 (X5 m c) shapeCasts_S2_S1x2 := by
  obtain ⟨hs, hd, hn, -, h5⟩ := kept_bias1 m ρ c
  have ks : W7 m ρ c (Proc.devRef .tc main_v5) = srcs m c := (W7_of_ne m ρ c main_v5 (by decide)).trans hs
  have kd : W7 m ρ c (Proc.devRef .tc main_v6) = dsts m c := (W7_of_ne m ρ c main_v6 (by decide)).trans hd
  have kn : W7 m ρ c (Proc.devRef .tc main_v29) = coef m c := (W7_of_ne m ρ c main_v29 (by decide)).trans hn
  have k5 : W7 m ρ c (Proc.devRef .tc main_arg5) = X5 m c := (W7_of_ne m ρ c main_arg5 (by decide)).trans h5
  refine ⟨?_, ?_⟩
  · refine (stretch3_agg (F := Ideal) (W7 m ρ c)).trans ?_
    rw [ks, kd, kn, after_dense2 m ρ c]
    exact (ref_narrow (F := Ideal) (X0 m c) (X1 m c) (X2 m c) (X3 m c) (X4 m c)).symm
  · refine (stretch3_bias (F := Ideal) (W7 m ρ c)).trans ?_
    rw [k5]

/-- THE RESULT: what the last bias call leaves in the result array is the reference's last stage of the launched
    arguments. -/
theorem result_eq (c : Dev nD) :
    W9 m ρ c (Proc.devRef .tc main_v61)
      = Cert.ReferenceIdeal.ReadP.val_main_v90 (F := Ideal) (X0 m c) (X1 m c) (X2 m c) (X3 m c) (X4 m c) (X5 m c) := by
  obtain ⟨ha, hb⟩ := at_entry3 m ρ c
  calc W9 m ρ c (Proc.devRef .tc main_v61)
    _ = (dat3 (F := Ideal) (V8 m ρ) c).arrAt 2 cfg3.N := W9_arr m ρ c 2
    _ = (Cert.GcnSpec.biasAdd (n := 100000) (d := 2) (Region3.aarr (V8 m ρ) c) (Region3.barr (V8 m ρ) c) : S100000x2.Idx → EReal) :=
        Region3.region3_out (V8 m ρ) c
    _ = (Cert.GcnSpec.biasAdd (n := 100000) (d := 2)
          (Cert.ReferenceIdeal.ReadP.val_main_v87 (F := Ideal) (X0 m c) (X1 m c) (X2 m c) (X3 m c) (X4 m c))
          (shapeCast S1x2 (X5 m c) shapeCasts_S2_S1x2) : S100000x2.Idx → EReal) :=
        congrArg₂ (Cert.GcnSpec.biasAdd (n := 100000) (d := 2)) ha hb
    _ = _ := Cert.ReferenceIdeal.Layers.bias_add _ (X5 m c) shapeCasts_S2_S1x2

end Cert.KernelIdeal.Result

end
-- ==== Proof.lean ====
/- The proof of `Cert.Claim`: a two-layer graph convolution, its dense products and bias stages in four pallas_calls and
   its edge aggregations on the host, against the plain jnp program.

   Both programs compute, over the extended reals, the same function: `x · W1`, aggregated over the edges with the
   symmetric degree normalisation, plus `b1`, rectified; times `W2`, aggregated again, plus `b2`. The kernel program's
   dense calls contract row blocks against the whole weight, which gives the rows of the one dense product; its bias
   calls add a one-row array to every row block; its host stretches between the calls are the reference's gathers,
   products and scatter-adds, term for term. No law of the extended reals is used beyond reading both dense products as
   the same sum, so the precondition (finite inputs) is never opened.

   The three frames: the two kernel programs' are the generated frames; the reference's is its run with the result
   dropped. `preserves`: the ideal pass rewrote nothing. `algebraic`: both runs end at the reference's last stage of the
   arguments (Proof/KernelValue.lean for the kernel program, the reference's run read back for the other). -/
import proofs.«174727_j6871947674334_1_alg».proof.Defs
import proofs.«174727_j6871947674334_1_alg».proof.Proof.Gen.Kernel
import proofs.«174727_j6871947674334_1_alg».proof.Proof.Gen.Kernel.Skeleton
import proofs.«174727_j6871947674334_1_alg».proof.Proof.Gen.Kernel.Launch
import proofs.«174727_j6871947674334_1_alg».proof.Proof.Gen.Kernel.Points
import proofs.«174727_j6871947674334_1_alg».proof.Proof.Gen.Kernel.Frame
import proofs.«174727_j6871947674334_1_alg».proof.Proof.Gen.KernelIdeal
import proofs.«174727_j6871947674334_1_alg».proof.Proof.Gen.KernelIdeal.Skeleton
import proofs.«174727_j6871947674334_1_alg».proof.Proof.Gen.KernelIdeal.Launch
import proofs.«174727_j6871947674334_1_alg».proof.Proof.Gen.KernelIdeal.Points
import proofs.«174727_j6871947674334_1_alg».proof.Proof.Gen.KernelIdeal.Frame
import proofs.«174727_j6871947674334_1_alg».proof.Proof.Gen.ReferenceIdeal
import proofs.«174727_j6871947674334_1_alg».proof.Proof.Gen.Pre_finite_inputs
import proofs.«174727_j6871947674334_1_alg».proof.Proof.RefRun
import proofs.«174727_j6871947674334_1_alg».proof.Proof.RefRead
import proofs.«174727_j6871947674334_1_alg».proof.Proof.KernelRun
import proofs.«174727_j6871947674334_1_alg».proof.Proof.KernelValue
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end with the result array at the reference's last stage of the (agreeing) arguments. -/
theorem algebraic : Cert.algebraic_KernelIdeal_ReferenceIdeal := by
  intro m ρ m' ρ' _ hagree
  refine ⟨fun c => Cert.ReferenceIdeal.ReadP.val_main_v90 (F := Ideal) (Cert.KernelIdeal.Result.X0 m c) (Cert.KernelIdeal.Result.X1 m c)
    (Cert.KernelIdeal.Result.X2 m c) (Cert.KernelIdeal.Result.X3 m c) (Cert.KernelIdeal.Result.X4 m c) (Cert.KernelIdeal.Result.X5 m c), ?_, ?_⟩
  · exact (θ_run Cert.KernelIdeal.defs _ _).mono
      (fun r h c => ⟨(h c).1.trans (Cert.KernelIdeal.Result.result_eq m ρ c), (h c).2⟩)
      (Cert.KernelIdeal.GenRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5⟩ := hagree c
    rw [Cert.ReferenceIdeal.ReadP.val_main_v90_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
